-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x10000 : Shape := ⟨2, ![10000, 10000]⟩
abbrev S10000x128 : Shape := ⟨2, ![10000, 128]⟩
abbrev S128x256 : Shape := ⟨2, ![128, 256]⟩
abbrev S_ : Shape := ⟨0, ![]⟩

class Facts : Prop where
  bcast_S_S10000x10000 : S_.BroadcastsInDim S10000x10000 (![] : Fin 0 → Fin S10000x10000.rank)
  reducesTo_S10000x10000_S_d0_1 : S10000x10000.ReducesTo [0, 1] S_
  h_S_ : 0 < S_.numel
  bcast_S_S10000x128 : S_.BroadcastsInDim S10000x128 (![] : Fin 0 → Fin S10000x128.rank)
  reducesTo_S10000x128_S_d0_1 : S10000x128.ReducesTo [0, 1] S_
  bcast_S_S128x256 : S_.BroadcastsInDim S128x256 (![] : Fin 0 → Fin S128x256.rank)
  reducesTo_S128x256_S_d0_1 : S128x256.ReducesTo [0, 1] S_

variable [Facts]

def fn {F : FTy → Type} [FloatOps F] (main_arg0 : FVec F S10000x10000 .f32) (main_arg1 : FVec F S10000x128 .f32) (main_arg2 : FVec F S128x256 .f32) : IVec S_ 1 :=
  let main_v0 : FVec F S10000x10000 .f32 := Host.absf main_arg0
  let main_cst : FVec F S_ .f32 := constant S_ .f32 0x7F800000#32
  let main_v1 : FVec F S10000x10000 .f32 := broadcastInDim S10000x10000 ![] bcast_S_S10000x10000 main_cst
  let main_v2 : IVec S10000x10000 1 := cmpf .olt main_v0 main_v1
  let main_c : IVec S_ 1 := constantI S_ 1 1#1
  let main_v3 : IVec S_ 1 := (fun x v => Host.reduce IntOp.andi x v reducesTo_S10000x10000_S_d0_1 h_S_) main_v2 main_c
  let main_v4 : FVec F S10000x128 .f32 := Host.absf main_arg1
  let main_cst_0 : FVec F S_ .f32 := constant S_ .f32 0x7F800000#32
  let main_v5 : FVec F S10000x128 .f32 := broadcastInDim S10000x128 ![] bcast_S_S10000x128 main_cst_0
  let main_v6 : IVec S10000x128 1 := cmpf .olt main_v4 main_v5
  let main_c_1 : IVec S_ 1 := constantI S_ 1 1#1
  let main_v7 : IVec S_ 1 := (fun x v => Host.reduce IntOp.andi x v reducesTo_S10000x128_S_d0_1 h_S_) main_v6 main_c_1
  let main_v8 : IVec S_ 1 := andi main_v3 main_v7
  let main_v9 : FVec F S128x256 .f32 := Host.absf main_arg2
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  main_v13
-- ==== Kernel.lean ====
abbrev S10000x10000 : Shape := ⟨2, ![10000, 10000]⟩
abbrev S10000x128 : Shape := ⟨2, ![10000, 128]⟩
abbrev S128x256 : Shape := ⟨2, ![128, 256]⟩
abbrev S128x128 : Shape := ⟨2, ![128, 128]⟩
abbrev S_ : Shape := ⟨0, ![]⟩
abbrev S10000x256 : Shape := ⟨2, ![10000, 256]⟩
abbrev S200x10000 : Shape := ⟨2, ![200, 10000]⟩
abbrev S400x128 : Shape := ⟨2, ![400, 128]⟩
abbrev S200x256 : Shape := ⟨2, ![200, 256]⟩
abbrev S200x128 : Shape := ⟨2, ![200, 128]⟩

abbrev nBuf : Space → Nat
  | .hbm => 14
  | .vmem => 9
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S128x256, .f32⟩
  | .hbm, ⟨3, _⟩ => ⟨S128x128, .f32⟩
  | .hbm, ⟨4, _⟩ => ⟨S128x128, .f32⟩
  | .hbm, ⟨5, _⟩ => ⟨S128x128, .bf16⟩
  | .hbm, ⟨6, _⟩ => ⟨S128x128, .f32⟩
  | .hbm, ⟨7, _⟩ => ⟨S128x128, .f32⟩
  | .hbm, ⟨8, _⟩ => ⟨S128x128, .bf16⟩
  | .hbm, ⟨9, _⟩ => ⟨S10000x128, .bf16⟩
  | .hbm, ⟨10, _⟩ => ⟨S_, .bf16⟩
  | .hbm, ⟨11, _⟩ => ⟨S10000x128, .bf16⟩
  | .hbm, ⟨12, _⟩ => ⟨S10000x256, .bf16⟩
  | .hbm, ⟨13, _⟩ => ⟨S10000x128, .f32⟩
  | .local _ .vmem, ⟨0, _⟩ => ⟨S200x10000, .f32⟩
  | .local _ .vmem, ⟨1, _⟩ => ⟨S200x10000, .f32⟩
  | .local _ .vmem, ⟨2, _⟩ => ⟨S200x10000, .f32⟩
  | .local _ .vmem, ⟨3, _⟩ => ⟨S200x10000, .f32⟩
  | .local _ .vmem, ⟨4, _⟩ => ⟨S10000x256, .bf16⟩
  | .local _ .vmem, ⟨5, _⟩ => ⟨S128x128, .bf16⟩
  | .local _ .vmem, ⟨6, _⟩ => ⟨S128x128, .bf16⟩
  | .local _ .vmem, ⟨7, _⟩ => ⟨S400x128, .f32⟩
  | .local _ .vmem, ⟨8, _⟩ => ⟨S400x128, .f32⟩
  | _, _ => ⟨S10000x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![25], ![false]⟩

def k0_off1 (i : grid0.Coords) (c0_i32 : BitVec 32) : Fin 2 → Nat :=
  let arg0 : BitVec 32 := BitVec.ofNat 32 (i 0).val
  let c400_i32 : BitVec 32 := 400#32
  let v10 : BitVec 32 := Scalar.muli arg0 c400_i32
  let v11 : BitVec 32 := Scalar.addi v10 c0_i32
  let v12 : Index := Scalar.indexCast v11
  let c0_4 : Index := 0#32
  ![v12.toNat, 0]
def cc0_transform_0 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S200x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S10000x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S400x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S128x256_S128x128_0_0 : S128x256.Slices ![0, 0] S128x128
  transposes_S128x128_S128x128_1_0 : S128x128.Transposes [1, 0] S128x128
  bitsLt_bf16_f32 : FTy.bits .bf16 < FTy.bits .f32
  slices_S128x256_S128x128_0_128 : S128x256.Slices ![0, 128] S128x128
  bcast_S_S10000x128 : S_.BroadcastsInDim S10000x128 (![] : Fin 0 → Fin S10000x128.rank)
  concatenates_S10000x128_S10000x128_S10000x256_d1 : Shape.Concatenates [S10000x128, S10000x128] S10000x256 1
  inb_S10000x256_S10000x256_0_0 : ∀ a, (![0, 0] : Fin 2 → Nat) a + S10000x256.size a ≤ S10000x256.size a
  h_S10000x256 : 0 < S10000x256.numel
  shapeCasts_S10000x256_S10000x256 : S10000x256.ShapeCasts S10000x256
  inb_S200x10000_S200x10000_0_0 : ∀ a, (![0, 0] : Fin 2 → Nat) a + S200x10000.size a ≤ S200x10000.size a
  h_S200x10000 : 0 < S200x10000.numel
  slices_S200x256_o0_0_S200x128 : S200x256.Slices ![0, 0] S200x128
  slices_S200x256_o0_128_S200x128 : S200x256.Slices ![0, 128] S200x128
  h_S200x128 : 0 < S200x128.numel
  shapeCasts_S200x128_S200x128 : S200x128.ShapeCasts S200x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S400x128_S200x128_0_0 : ∀ a, (![0, 0] : Fin 2 → Nat) a + S200x128.size a ≤ S400x128.size a
  inb_S400x128_S200x128_200_0 : ∀ a, (![200, 0] : Fin 2 → Nat) a + S200x128.size a ≤ S400x128.size a
  dot_S200x10000_S10000x256_S200x256_1_0_0_1_n_n_wf : DotDims.WF S200x10000 S10000x256 S200x256 [1] [0] [0] [1] [] []
  dot_S200x128_S128x128_S200x128_1_0_0_1_n_n_wf : DotDims.WF S200x128 S128x128 S200x128 [1] [0] [0] [1] [] []
  hrank0 : 0 < grid0.rank
  k0_off1_inb : ∀ i : grid0.Coords, ∀ (r : Fin 2), ∀ a, (k0_off1 i (BitVec.ofNat 32 (200 * r.val))) a + S200x128.size a ≤ S10000x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x10000.size a ≤ S10000x10000.size a
  hwx0_0 : ∀ i : grid0.Coords, EltTy.bits .f32 = 32 ∨ (Rect.block (s := S10000x10000) S200x10000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S200x10000.size a ≤ S10000x10000.size a
  hwx0_1 : ∀ i : grid0.Coords, EltTy.bits .f32 = 32 ∨ (Rect.block (s := S10000x10000) S200x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10000x256.size a ≤ S10000x256.size a
  hwx0_2 : ∀ i : grid0.Coords, EltTy.bits .bf16 = 32 ∨ (Rect.block (s := S10000x256) S10000x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S400x128.size a ≤ S10000x128.size a
  hwx0_5 : ∀ i : grid0.Coords, EltTy.bits .f32 = 32 ∨ (Rect.block (s := S10000x128) S400x128.size (cc0_transform_5 i) (hinb0_5 i)).WholeWords (EltTy.packing .f32)

variable [Facts₀]

def dot_S200x10000_S10000x256_S200x256_1_0_0_1_n_n : DotDims S200x10000 S10000x256 S200x256 where
  lhsContracting := [1]
  rhsContracting := [0]
  lhsNonContracting := [0]
  rhsNonContracting := [1]
  lhsBatch := []
  rhsBatch := []
  wf := dot_S200x10000_S10000x256_S200x256_1_0_0_1_n_n_wf
def dot_S200x128_S128x128_S200x128_1_0_0_1_n_n : DotDims S200x128 S128x128 S200x128 where
  lhsContracting := [1]
  rhsContracting := [0]
  lhsNonContracting := [0]
  rhsNonContracting := [1]
  lhsBatch := []
  rhsBatch := []
  wf := dot_S200x128_S128x128_S200x128_1_0_0_1_n_n_wf

abbrev win0_0 : Pipeline.Window sig grid0 :=
  Pipeline.Window.ofSpec (Memref.whole main_arg0) S200x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S200x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S10000x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S400x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S10000x10000 : Shape := ⟨2, ![10000, 10000]⟩
abbrev S10000x128 : Shape := ⟨2, ![10000, 128]⟩
abbrev S128x256 : Shape := ⟨2, ![128, 256]⟩
abbrev S_ : Shape := ⟨0, ![]⟩
abbrev S10000 : Shape := ⟨1, ![10000]⟩
abbrev S10000x1 : Shape := ⟨2, ![10000, 1]⟩
abbrev S10000x256 : Shape := ⟨2, ![10000, 256]⟩
abbrev S256x128 : Shape := ⟨2, ![256, 128]⟩

abbrev nBuf : Space → Nat
  | .hbm => 15
  | .vmem => 0
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S128x256, .f32⟩
  | .hbm, ⟨3, _⟩ => ⟨S10000x128, .f32⟩
  | .hbm, ⟨4, _⟩ => ⟨S_, .f32⟩
  | .hbm, ⟨5, _⟩ => ⟨S10000, .f32⟩
  | .hbm, ⟨6, _⟩ => ⟨S10000x1, .f32⟩
  | .hbm, ⟨7, _⟩ => ⟨S_, .f32⟩
  | .hbm, ⟨8, _⟩ => ⟨S10000x1, .f32⟩
  | .hbm, ⟨9, _⟩ => ⟨S10000x1, .f32⟩
  | .hbm, ⟨10, _⟩ => ⟨S10000x128, .f32⟩
  | .hbm, ⟨11, _⟩ => ⟨S10000x128, .f32⟩
  | .hbm, ⟨12, _⟩ => ⟨S10000x256, .f32⟩
  | .hbm, ⟨13, _⟩ => ⟨S256x128, .f32⟩
  | .hbm, ⟨14, _⟩ => ⟨S10000x128, .f32⟩
  | _, _ => ⟨S10000x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]

class Facts₀ : Prop where
  reducesTo_S10000x10000_S10000_d1 : S10000x10000.ReducesTo [1] S10000
  h_S_ : 0 < S_.numel
  shapeCasts_S10000_S10000x1 : S10000.ShapeCasts S10000x1
  bcast_S_S10000x1 : S_.BroadcastsInDim S10000x1 (![] : Fin 0 → Fin S10000x1.rank)
  bcast_S10000x1_S10000x128_0_1 : S10000x1.BroadcastsInDim S10000x128 (![0, 1] : Fin 2 → Fin S10000x128.rank)
  concatenates_S10000x128_S10000x128_S10000x256_d1 : Shape.Concatenates [S10000x128, S10000x128] S10000x256 1
  transposes_S128x256_S256x128_1_0 : S128x256.Transposes [1, 0] S256x128
  dot_S10000x10000_S10000x128_S10000x128_1_0_0_1_n_n_wf : DotDims.WF S10000x10000 S10000x128 S10000x128 [1] [0] [0] [1] [] []
  dot_S10000x256_S256x128_S10000x128_1_0_0_1_n_n_wf : DotDims.WF S10000x256 S256x128 S10000x128 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf

class Facts : Prop extends Facts₀ where

variable [Facts]
-- ==== Proof.SageEntryBits.lean ====
/-
  The program as printed up to its one kernel region: what the buffers hold when the region is entered (the weight's
  two halves transposed, the features with 128 columns of ones appended, the three argument arrays untouched),
  each window's block of its array at a grid point, and that an input window's staging buffer holds that block
  whenever the body runs.
-/
import proofs.«111969_g26362509263549_cont_9to1_630_17_alg».proof.Proof.Gen.Kernel.Launch
import proofs.«111969_g26362509263549_cont_9to1_630_17_alg».proof.Proof.Gen.Kernel.Skeleton
import proofs.«111969_g26362509263549_cont_9to1_630_17_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- Core `c`'s buffers when the region is entered: the launch contents after the host operations that split and
    transpose the weight, narrow the features and append the columns of ones. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes an argument array. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, Finset.mem_singleton]
    repeat' apply And.intro
    all_goals exact StableHlo.devRef_ne_of_ne (by decide)))

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, whether the pipeline fetched it there
    or (the three resident operands, after the first point) left it in place. One statement per window. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

end Cert.Kernel.Region

end
-- ==== Proof.SageDataBits.lean ====
/-
  What the region's body leaves behind, as data for the launch: the 400-row output block after a grid point is two
  200-row pieces, one per row stream of the adjacency array, each the body's arithmetic on that stream's 200 rows, the
  resident feature matrix with its columns of ones, the 200 matching feature rows and the two weight halves.
  The two windows on the adjacency array each hold half of its share; every other array is held whole.
-/
import proofs.«111969_g26362509263549_cont_9to1_630_17_alg».proof.Proof.SageEntryBits

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses -/

/-- A whole 200-row stream block of the adjacency array. -/
abbrev rAdj : Rect S200x10000 := Rect.unit (s := S200x10000) ![0, 0] S200x10000.size inb_S200x10000_S200x10000_0_0
/-- The whole resident feature matrix (features and ones). -/
abbrev rFeat : Rect S10000x256 := Rect.unit (s := S10000x256) ![0, 0] S10000x256.size inb_S10000x256_S10000x256_0_0
/-- The 200 feature rows of the first and of the second stream at grid point `i` (rows `400 i` and `400 i + 200` on). -/
abbrev rRows0 (i : grid0.Coords) : Rect S10000x256 := Rect.unit (s := S10000x256) (k0_off1 i 0#32) S200x128.size (k0_off1_inb i 0)
abbrev rRows1 (i : grid0.Coords) : Rect S10000x256 := Rect.unit (s := S10000x256) (k0_off1 i 200#32) S200x128.size (k0_off1_inb i 1)
/-- A whole weight half. -/
abbrev rWt : Rect S128x128 := Rect.unit (s := S128x128) ![0, 0] S128x128.size inb_S128x128_S128x128_0_0
/-- The output block's upper and lower 200 rows. -/
abbrev rOut0 : Rect S400x128 := Rect.unit (s := S400x128) ![0, 0] S200x128.size inb_S400x128_S200x128_0_0
abbrev rOut1 : Rect S400x128 := Rect.unit (s := S400x128) ![200, 0] S200x128.size inb_S400x128_S200x128_200_0

/-! ## What the body leaves in the output block -/

/-- The output staging buffer after the body at grid coordinates `i`: the lower 200 rows from the second stream
    (stored last), the upper 200 from the first. -/
def out5 (i : grid0.Coords) (x0 x1 : Vec F S200x10000 .f32) (x2 : Vec F S10000x256 .bf16) (x3 x4 : Vec F S128x128 .bf16) : Vec F S400x128 .f32 :=
  View.canon [⟨rOut1, k0_pay1 (k0_pay4 (View.ld x2 rFeat) (View.ld x1 rAdj)) (View.ld x2 (rRows1 i)) (View.ld x3 rWt) (View.ld x4 rWt)⟩,
    ⟨rOut0, k0_pay3 (View.ld x2 rFeat) (View.ld x0 rAdj) (View.ld x2 (rRows0 i)) (View.ld x3 rWt) (View.ld x4 rWt)⟩]

/-- The two stores tile the 400 rows. -/
theorem cover5 (p1 p0 : Vec F S200x128 .f32) (y : S400x128.Idx) :
    ∃ pc ∈ ([⟨rOut1, p1⟩, ⟨rOut0, p0⟩] : List (View.Piece (Elt F) S400x128 .f32)), y ∈ pc.1.set :=
  View.cover_of_tiled [⟨rOut1, p1⟩, ⟨rOut0, p0⟩] S200x128.size (by rfl) y

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out5 (grid0.coords t) (iblk m c 0 t) (iblk m c 1 t) (iblk m c 2 t) (iblk m c 3 t) (iblk m c 4 t)
  Φ _ := iprop(emp)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t
    = out5 (grid0.coords t) (iblk m c 0 t) (iblk m c 1 t) (iblk m c 2 t) (iblk m c 3 t) (iblk m c 4 t) := by dsimp only [dats]

theorem before0_0 (c : Dev nD) (t : Fin cfg0.N) (d) : (dats m 0 c).before 0 t d = iblk m c 0 t :=
  before0_of m (dats m 0 c) (A_eq m c 0) (after0_0 m c) t d
theorem before0_1 (c : Dev nD) (t : Fin cfg0.N) (d) : (dats m 0 c).before 1 t d = iblk m c 1 t :=
  before1_of m (dats m 0 c) (A_eq m c 1) (after0_1 m c) t d
theorem before0_2 (c : Dev nD) (t : Fin cfg0.N) (d) : (dats m 0 c).before 2 t d = iblk m c 2 t :=
  before2_of m (dats m 0 c) (A_eq m c 2) (after0_2 m c) t d
theorem before0_3 (c : Dev nD) (t : Fin cfg0.N) (d) : (dats m 0 c).before 3 t d = iblk m c 3 t :=
  before3_of m (dats m 0 c) (A_eq m c 3) (after0_3 m c) t d
theorem before0_4 (c : Dev nD) (t : Fin cfg0.N) (d) : (dats m 0 c).before 4 t d = iblk m c 4 t :=
  before4_of m (dats m 0 c) (A_eq m c 4) (after0_4 m c) t d

end Cert.Kernel.Region

end
-- ==== Proof.SageRegionBits.lean ====
/-
  The region run: the body's triple on whole staging buffers, the obligation at every grid point, the adjacency
  array's share dealt in halves to its two windows, and the launch.  Every weakly fair execution of the program
  terminates with the result array at what the 25 write-backs leave and every other array as the region found it.
-/
import proofs.«111969_g26362509263549_cont_9to1_630_17_alg».proof.Proof.SageDataBits
import Idealize.ShloMosaic.Lib.Pipeline.FrameBody
import Idealize.ShloMosaic.Lib.Ring
import Idealize.ShloMosaic.Lib.Tactic

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's triple -/

set_option maxHeartbeats 2000000 in
/-- The kernel body on whole staging buffers — the five inputs' at read contents `x0 … x4`, the output's at anything —
    runs to the continuation holding the inputs' as they were and the output's at `out5` of them. -/
theorem sound_kernel (c : Dev nD) (E : Set ℕ) (i : grid0.Coords)
    (arg1 : Memref sig .tc .vmem S200x10000 .f32) (harg1 : arg1.IsWhole) (arg2 : Memref sig .tc .vmem S200x10000 .f32) (harg2 : arg2.IsWhole)
    (arg3 : Memref sig .tc .vmem S10000x256 .bf16) (harg3 : arg3.IsWhole) (arg4 : Memref sig .tc .vmem S128x128 .bf16) (harg4 : arg4.IsWhole)
    (arg5 : Memref sig .tc .vmem S128x128 .bf16) (harg5 : arg5.IsWhole) (arg6 : Memref sig .tc .vmem S400x128 .f32) (harg6 : arg6.IsWhole)
    (x0 x1 : Vec F S200x10000 .f32) (x2 : Vec F S10000x256 .bf16) (x3 x4 : Vec F S128x128 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out5 i x0 x1 x2 x3 x4)) -∗ K ⟨⟩))
      ⊢ wp frame (wpE (defs₀ (F := F)) Variants.none c none) E (cc0__sage_kernel i arg1 harg1 arg2 harg2 arg3 harg3 arg4 harg4 arg5 harg5 arg6 harg6) K := by
  simp only [cc0__sage_kernel_eq_skeleton]; unfold cc0__sage_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5 _ _)

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: every input's buffer holds its block, so the triple applies; nothing else is touched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m 0 c) (defs₀ (F := F)) Variants.none () Set.univ := fun t => by
  rw [bigSep_W0, bigSep_W0]
  exact sound_body m c t

/-! ## The adjacency array's share, dealt to its two windows -/

/-- The distinct buffers behind the six windows' arrays, one by one. -/
theorem arrBufs_eq (c : Dev nD) (V' : (b : Ref sig .tc) → Buf (Elt F) ((c : Thread nD τ).loc b)) :
    (Pipeline.arrBufs spec0 c V' : sProp 𝕄)
      = iprop((((c : Thread nD τ).loc main_arg0) ↦{fullShare} V' main_arg0) ∗ (((c : Thread nD τ).loc main_v8) ↦{fullShare} V' main_v8)
          ∗ (((c : Thread nD τ).loc main_v2) ↦{fullShare} V' main_v2) ∗ (((c : Thread nD τ).loc main_v5) ↦{fullShare} V' main_v5)
          ∗ (((c : Thread nD τ).loc main_v9) ↦{fullShare} V' main_v9)) := by
  unfold Pipeline.arrBufs
  exact bigSep_eq_bigSepL_of_eq [main_arg0, main_v8, main_v2, main_v5, main_v9] (by decide) (by decide) _

/-- The pipeline's arrays at entry: every window's array whole, at the share the proof data names. -/
theorem arrays_entry (c : Dev nD) :
    (dats m 0 c).arrays ((dats m 0 c).arrAt · 0)
      = bigSep Finset.univ fun w : Fin 6 => (((c : Thread nD τ).loc (Pipeline.arrRef spec0 w)) ↦{(dats m 0 c).share w} V m c (Pipeline.arrRef spec0 w) : sProp 𝕄) := by
  unfold Dat.arrays
  exact bigSep_congr fun w _ => by rw [(arr_whole0 w).set_eq_univ]; rfl

/-- The adjacency array, held whole at the region's entry, is split in halves between the two windows that read it;
    the other four arrays go to their windows whole. -/
theorem hsplit (c : Dev nD) : (Pipeline.arrBufs spec0 c (V m c) : sProp 𝕄) ⊢ (dats m 0 c).arrays ((dats m 0 c).arrAt · 0) := by
  rw [arrBufs_eq, arrays_entry, bigSep_W0]
  refine (sep_mono (pointsTo_share (PosShare.mem_left_op_right fullShare)).1 .rfl).trans ?_
  iintro ⟨⟨HAl, HAr⟩, H8, H2, H5, H9⟩
  isplitl [HAl]; · iexact HAl
  isplitl [HAr]; · iexact HAr
  isplitl [H8]; · iexact H8
  isplitl [H2]; · iexact H2
  isplitl [H5]; · iexact H5
  iexact H9

/-! ## The launch -/

/-- The resource algebra: one copy of the rounds library's, the pipeline's. -/
abbrev EP : Emb (UR sig nD τ) (MT nD τ sig Unit (Elt F) ℕ (UR sig nD τ) ℕ) := emb₁

/-- The launch element: every staging cell's owner at round 0 and a duty token for every transfer the pipeline issues. -/
def u₀ : UR sig nD τ := initOf (Pipeline.cells cfgs cellOf_inj) (Pipeline.launchToks cfgs cellOf_inj)

set_option backward.isDefEq.respectTransparency.types false in
theorem run_main : θ_run defs (onTc (τ := τ) (main (F := F))) (s₀ m ρ) (Pipeline.FramePost cfgs (dats m) 0 (V m)) :=
  Pipeline.θ_run_region_noSem_shared cfgs (dats m) () cellOf_inj (0 : Fin 1) winFacts₀0 EP defs₀ Variants.none m ρ main
    (hbody := fun c => (body_obligation m c).loose)
    (hne := block_pos0) (harr := arr_whole0) (hstage := stage_whole0)
    (howed := fun _ _ => rfl)
    (u₀ := u₀) (hu₀ := BI.Entails.refl _)
    (V := V m) (hmain := hmain m Variants.none)
    (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by iintro H; isplitr; · iempintro
                       iexact H)
    (hin := fun _ => by rw [scopedRest0_eq]; iintro ⟨-, -⟩; iempintro)
    (hout := fun _ => by rw [scopedRest0_eq]; iintro -; isplitr <;> iempintro)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

/-- The frame: the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩) (run_main m ρ)

end Cert.Kernel.Region

end
-- ==== Proof.SageEntry.lean ====
/-
  The idealized program up to its one kernel region: what the buffers hold when the region is entered (the weight's
  two halves transposed, the features with 128 columns of ones appended, the three argument arrays untouched),
  each window's block of its array at a grid point, and that an input window's staging buffer holds that block
  whenever the body runs.
-/
import proofs.«111969_g26362509263549_cont_9to1_630_17_alg».proof.Proof.Gen.KernelIdeal.Launch
import proofs.«111969_g26362509263549_cont_9to1_630_17_alg».proof.Proof.Gen.KernelIdeal.Skeleton
import proofs.«111969_g26362509263549_cont_9to1_630_17_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- Core `c`'s buffers when the region is entered: the launch contents after the host operations that split and
    transpose the weight, narrow the features and append the columns of ones. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes an argument array. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, Finset.mem_singleton]
    repeat' apply And.intro
    all_goals exact StableHlo.devRef_ne_of_ne (by decide)))

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, whether the pipeline fetched it there
    or (the three resident operands, after the first point) left it in place. One statement per window. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

end Cert.KernelIdeal.Region

end
-- ==== Proof.SageData.lean ====
/-
  What the region's body leaves behind, as data for the launch: the 400-row output block after a grid point is two
  200-row pieces, one per row stream of the adjacency array, each the body's arithmetic on that stream's 200 rows, the
  resident feature matrix with its columns of ones, the 200 matching feature rows and the two weight halves.
  The two windows on the adjacency array each hold half of its share; every other array is held whole.
-/
import proofs.«111969_g26362509263549_cont_9to1_630_17_alg».proof.Proof.SageEntry

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses -/

/-- A whole 200-row stream block of the adjacency array. -/
abbrev rAdj : Rect S200x10000 := Rect.unit (s := S200x10000) ![0, 0] S200x10000.size inb_S200x10000_S200x10000_0_0
/-- The whole resident feature matrix (features and ones). -/
abbrev rFeat : Rect S10000x256 := Rect.unit (s := S10000x256) ![0, 0] S10000x256.size inb_S10000x256_S10000x256_0_0
/-- The 200 feature rows of the first and of the second stream at grid point `i` (rows `400 i` and `400 i + 200` on). -/
abbrev rRows0 (i : grid0.Coords) : Rect S10000x256 := Rect.unit (s := S10000x256) (k0_off1 i 0#32) S200x128.size (k0_off1_inb i 0)
abbrev rRows1 (i : grid0.Coords) : Rect S10000x256 := Rect.unit (s := S10000x256) (k0_off1 i 200#32) S200x128.size (k0_off1_inb i 1)
/-- A whole weight half. -/
abbrev rWt : Rect S128x128 := Rect.unit (s := S128x128) ![0, 0] S128x128.size inb_S128x128_S128x128_0_0
/-- The output block's upper and lower 200 rows. -/
abbrev rOut0 : Rect S400x128 := Rect.unit (s := S400x128) ![0, 0] S200x128.size inb_S400x128_S200x128_0_0
abbrev rOut1 : Rect S400x128 := Rect.unit (s := S400x128) ![200, 0] S200x128.size inb_S400x128_S200x128_200_0

/-! ## What the body leaves in the output block -/

/-- The output staging buffer after the body at grid coordinates `i`: the lower 200 rows from the second stream
    (stored last), the upper 200 from the first. -/
def out5 (i : grid0.Coords) (x0 x1 : Vec F S200x10000 .f32) (x2 : Vec F S10000x256 .bf16) (x3 x4 : Vec F S128x128 .bf16) : Vec F S400x128 .f32 :=
  View.canon [⟨rOut1, k0_pay1 (k0_pay4 (View.ld x2 rFeat) (View.ld x1 rAdj)) (View.ld x2 (rRows1 i)) (View.ld x3 rWt) (View.ld x4 rWt)⟩,
    ⟨rOut0, k0_pay3 (View.ld x2 rFeat) (View.ld x0 rAdj) (View.ld x2 (rRows0 i)) (View.ld x3 rWt) (View.ld x4 rWt)⟩]

/-- The two stores tile the 400 rows. -/
theorem cover5 (p1 p0 : Vec F S200x128 .f32) (y : S400x128.Idx) :
    ∃ pc ∈ ([⟨rOut1, p1⟩, ⟨rOut0, p0⟩] : List (View.Piece (Elt F) S400x128 .f32)), y ∈ pc.1.set :=
  View.cover_of_tiled [⟨rOut1, p1⟩, ⟨rOut0, p0⟩] S200x128.size (by rfl) y

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out5 (grid0.coords t) (iblk m c 0 t) (iblk m c 1 t) (iblk m c 2 t) (iblk m c 3 t) (iblk m c 4 t)
  Φ _ := iprop(emp)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t
    = out5 (grid0.coords t) (iblk m c 0 t) (iblk m c 1 t) (iblk m c 2 t) (iblk m c 3 t) (iblk m c 4 t) := by dsimp only [dats]

theorem before0_0 (c : Dev nD) (t : Fin cfg0.N) (d) : (dats m 0 c).before 0 t d = iblk m c 0 t :=
  before0_of m (dats m 0 c) (A_eq m c 0) (after0_0 m c) t d
theorem before0_1 (c : Dev nD) (t : Fin cfg0.N) (d) : (dats m 0 c).before 1 t d = iblk m c 1 t :=
  before1_of m (dats m 0 c) (A_eq m c 1) (after0_1 m c) t d
theorem before0_2 (c : Dev nD) (t : Fin cfg0.N) (d) : (dats m 0 c).before 2 t d = iblk m c 2 t :=
  before2_of m (dats m 0 c) (A_eq m c 2) (after0_2 m c) t d
theorem before0_3 (c : Dev nD) (t : Fin cfg0.N) (d) : (dats m 0 c).before 3 t d = iblk m c 3 t :=
  before3_of m (dats m 0 c) (A_eq m c 3) (after0_3 m c) t d
theorem before0_4 (c : Dev nD) (t : Fin cfg0.N) (d) : (dats m 0 c).before 4 t d = iblk m c 4 t :=
  before4_of m (dats m 0 c) (A_eq m c 4) (after0_4 m c) t d

end Cert.KernelIdeal.Region

end
-- ==== Proof.SageRegion.lean ====
/-
  The region run: the body's triple on whole staging buffers, the obligation at every grid point, the adjacency
  array's share dealt in halves to its two windows, and the launch.  Every weakly fair execution of the program
  terminates with the result array at what the 25 write-backs leave and every other array as the region found it.
-/
import proofs.«111969_g26362509263549_cont_9to1_630_17_alg».proof.Proof.SageData
import Idealize.ShloMosaic.Lib.Pipeline.FrameBody
import Idealize.ShloMosaic.Lib.Ring
import Idealize.ShloMosaic.Lib.Tactic

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's triple -/

set_option maxHeartbeats 2000000 in
/-- The kernel body on whole staging buffers — the five inputs' at read contents `x0 … x4`, the output's at anything —
    runs to the continuation holding the inputs' as they were and the output's at `out5` of them. -/
theorem sound_kernel (c : Dev nD) (E : Set ℕ) (i : grid0.Coords)
    (arg1 : Memref sig .tc .vmem S200x10000 .f32) (harg1 : arg1.IsWhole) (arg2 : Memref sig .tc .vmem S200x10000 .f32) (harg2 : arg2.IsWhole)
    (arg3 : Memref sig .tc .vmem S10000x256 .bf16) (harg3 : arg3.IsWhole) (arg4 : Memref sig .tc .vmem S128x128 .bf16) (harg4 : arg4.IsWhole)
    (arg5 : Memref sig .tc .vmem S128x128 .bf16) (harg5 : arg5.IsWhole) (arg6 : Memref sig .tc .vmem S400x128 .f32) (harg6 : arg6.IsWhole)
    (x0 x1 : Vec F S200x10000 .f32) (x2 : Vec F S10000x256 .bf16) (x3 x4 : Vec F S128x128 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out5 i x0 x1 x2 x3 x4)) -∗ K ⟨⟩))
      ⊢ wp frame (wpE (defs₀ (F := F)) Variants.none c none) E (cc0__sage_kernel i arg1 harg1 arg2 harg2 arg3 harg3 arg4 harg4 arg5 harg5 arg6 harg6) K := by
  simp only [cc0__sage_kernel_eq_skeleton]; unfold cc0__sage_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5 _ _)

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: every input's buffer holds its block, so the triple applies; nothing else is touched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m 0 c) (defs₀ (F := F)) Variants.none () Set.univ := fun t => by
  rw [bigSep_W0, bigSep_W0]
  exact sound_body m c t

/-! ## The adjacency array's share, dealt to its two windows -/

/-- The distinct buffers behind the six windows' arrays, one by one. -/
theorem arrBufs_eq (c : Dev nD) (V' : (b : Ref sig .tc) → Buf (Elt F) ((c : Thread nD τ).loc b)) :
    (Pipeline.arrBufs spec0 c V' : sProp 𝕄)
      = iprop((((c : Thread nD τ).loc main_arg0) ↦{fullShare} V' main_arg0) ∗ (((c : Thread nD τ).loc main_v8) ↦{fullShare} V' main_v8)
          ∗ (((c : Thread nD τ).loc main_v2) ↦{fullShare} V' main_v2) ∗ (((c : Thread nD τ).loc main_v5) ↦{fullShare} V' main_v5)
          ∗ (((c : Thread nD τ).loc main_v9) ↦{fullShare} V' main_v9)) := by
  unfold Pipeline.arrBufs
  exact bigSep_eq_bigSepL_of_eq [main_arg0, main_v8, main_v2, main_v5, main_v9] (by decide) (by decide) _

/-- The pipeline's arrays at entry: every window's array whole, at the share the proof data names. -/
theorem arrays_entry (c : Dev nD) :
    (dats m 0 c).arrays ((dats m 0 c).arrAt · 0)
      = bigSep Finset.univ fun w : Fin 6 => (((c : Thread nD τ).loc (Pipeline.arrRef spec0 w)) ↦{(dats m 0 c).share w} V m c (Pipeline.arrRef spec0 w) : sProp 𝕄) := by
  unfold Dat.arrays
  exact bigSep_congr fun w _ => by rw [(arr_whole0 w).set_eq_univ]; rfl

/-- The adjacency array, held whole at the region's entry, is split in halves between the two windows that read it;
    the other four arrays go to their windows whole. -/
theorem hsplit (c : Dev nD) : (Pipeline.arrBufs spec0 c (V m c) : sProp 𝕄) ⊢ (dats m 0 c).arrays ((dats m 0 c).arrAt · 0) := by
  rw [arrBufs_eq, arrays_entry, bigSep_W0]
  refine (sep_mono (pointsTo_share (PosShare.mem_left_op_right fullShare)).1 .rfl).trans ?_
  iintro ⟨⟨HAl, HAr⟩, H8, H2, H5, H9⟩
  isplitl [HAl]; · iexact HAl
  isplitl [HAr]; · iexact HAr
  isplitl [H8]; · iexact H8
  isplitl [H2]; · iexact H2
  isplitl [H5]; · iexact H5
  iexact H9

/-! ## The launch -/

/-- The resource algebra: one copy of the rounds library's, the pipeline's. -/
abbrev EP : Emb (UR sig nD τ) (MT nD τ sig Unit (Elt F) ℕ (UR sig nD τ) ℕ) := emb₁

/-- The launch element: every staging cell's owner at round 0 and a duty token for every transfer the pipeline issues. -/
def u₀ : UR sig nD τ := initOf (Pipeline.cells cfgs cellOf_inj) (Pipeline.launchToks cfgs cellOf_inj)

set_option backward.isDefEq.respectTransparency.types false in
theorem run_main : θ_run defs (onTc (τ := τ) (main (F := F))) (s₀ m ρ) (Pipeline.FramePost cfgs (dats m) 0 (V m)) :=
  Pipeline.θ_run_region_noSem_shared cfgs (dats m) () cellOf_inj (0 : Fin 1) winFacts₀0 EP defs₀ Variants.none m ρ main
    (hbody := fun c => (body_obligation m c).loose)
    (hne := block_pos0) (harr := arr_whole0) (hstage := stage_whole0)
    (howed := fun _ _ => rfl)
    (u₀ := u₀) (hu₀ := BI.Entails.refl _)
    (V := V m) (hmain := hmain m Variants.none)
    (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by iintro H; isplitr; · iempintro
                       iexact H)
    (hin := fun _ => by rw [scopedRest0_eq]; iintro ⟨-, -⟩; iempintro)
    (hout := fun _ => by rw [scopedRest0_eq]; iintro -; isplitr <;> iempintro)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

/-- The frame: the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩) (run_main m ρ)

end Cert.KernelIdeal.Region

end
-- ==== Proof.SageSpec.lean ====
/-
  The layer as one function of the adjacency matrix A (10000 × 10000), the features X (10000 × 128) and the weight
  W (128 × 256), over the extended reals:
      out[r, o] = Σ_{k<128} X[r, k] · W[o, k]  +  Σ_{k<128} (Σ_j A[r, j] · X[j, k]) / ((Σ_j A[r, j]) + 1) · W[o, 128 + k].
  Both programs are shown to compute it.  Also here: a sum over 256 columns is the sum over the first 128 plus the
  sum over the last 128 (addition on the extended reals is commutative and associative; nothing needs finiteness).
-/
import Idealize.ShloMosaic.PureOps.Ideal
import Idealize.ShloMosaic.PureOps.Ideal.Laws
import Idealize.ShloMosaic.Lib.ValueIdx

noncomputable section

open scoped BigOperators

namespace Cert.Sage

open Idealize.ShloMosaic Idealize.ShloMosaic.ValueIdx

abbrev SAdj : Shape := ⟨2, ![10000, 10000]⟩
abbrev SFeat : Shape := ⟨2, ![10000, 128]⟩
abbrev SWt : Shape := ⟨2, ![128, 256]⟩

/-- The single-precision literal 1.0 both programs add to the row sum (the same word on both sides; never evaluated). -/
abbrev oneF : EReal := Ideal.ofBits .f32 0x3F800000#32

/-- Column `k` of the weight's first half, and of its second half, as a column of all 256. -/
abbrev lo (k : Fin 128) : Fin 256 := ⟨k.val, by omega⟩
abbrev hi (k : Fin 128) : Fin 256 := ⟨128 + k.val, by omega⟩

/-- Row `r` of `A · X`, column `k`. -/
def agg (A : SAdj.Idx → EReal) (X : SFeat.Idx → EReal) (r : Fin 10000) (k : Fin 128) : EReal :=
  ∑ j : Fin 10000, A (ix2 r j) * X (ix2 j k)
/-- The sum of row `r` of `A`. -/
def deg (A : SAdj.Idx → EReal) (r : Fin 10000) : EReal := ∑ j : Fin 10000, A (ix2 r j)
/-- The normalised neighbour aggregate. -/
def neigh (A : SAdj.Idx → EReal) (X : SFeat.Idx → EReal) (r : Fin 10000) (k : Fin 128) : EReal :=
  Ideal.div (agg A X r k) (deg A r + oneF)
/-- The layer's output at row `r`, column `o`. -/
def outAt (A : SAdj.Idx → EReal) (X : SFeat.Idx → EReal) (W : SWt.Idx → EReal) (r : Fin 10000) (o : Fin 128) : EReal :=
  (∑ k : Fin 128, X (ix2 r k) * W (ix2 o (lo k))) + ∑ k : Fin 128, neigh A X r k * W (ix2 o (hi k))
/-- The layer's output array. -/
def G (A : SAdj.Idx → EReal) (X : SFeat.Idx → EReal) (W : SWt.Idx → EReal) : SFeat.Idx → EReal :=
  fun i => outAt A X W (i 0) (i 1)

theorem G_ix2 (A : SAdj.Idx → EReal) (X : SFeat.Idx → EReal) (W : SWt.Idx → EReal) (r : Fin 10000) (o : Fin 128) :
    G A X W (ix2 r o) = outAt A X W r o := rfl

/-- A sum over the 256 columns splits at column 128. -/
theorem sum_split256 {M : Type*} [AddCommMonoid M] (f : Fin 256 → M) :
    ∑ k : Fin 256, f k = (∑ k : Fin 128, f (lo k)) + ∑ k : Fin 128, f (hi k) := by
  have h := Fin.sum_univ_add (a := 128) (b := 128) (fun k : Fin (128 + 128) => f k)
  exact h

end Cert.Sage

end
-- ==== Proof.PieceValue.lean ====
/-
  One 200-row piece of the output block, read at a row and a column: at the ideal instance the body's arithmetic on a
  row stream `a` (200 × 10000), the resident matrix `fb` (10000 × 256: features, then ones), the matching feature rows
  `f` (200 × 128) and the weight halves `w1`, `w2` (128 × 128) is
      Σ_k f[p, k] · w1[k, o]  +  Σ_k (Σ_j a[p, j] · fb[j, k]) / ((Σ_j a[p, j] · fb[j, 128 + k]) + 1) · w2[k, o]
  — the matrix unit's products into a zero accumulator are plain sums, the narrowing to bf16 is the identity.
-/
import proofs.«111969_g26362509263549_cont_9to1_630_17_alg».proof.Proof.Gen.KernelIdeal.Skeleton
import proofs.«111969_g26362509263549_cont_9to1_630_17_alg».proof.Proof.SageSpec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Piece

open Cert.KernelIdeal Cert.KernelIdeal.Gen Cert.Sage
open Idealize.ShloMosaic Idealize.ShloMosaic.ValueIdx

/-- One piece's value at row `p` of the stream and output column `o`. -/
def pieceAt (fb : Vec Ideal S10000x256 .bf16) (a : Vec Ideal S200x10000 .f32) (f : Vec Ideal S200x128 .bf16)
    (w1 w2 : Vec Ideal S128x128 .bf16) (p : Fin 200) (o : Fin 128) : EReal :=
  (∑ k : Fin 128, f (ix2 p k) * w1 (ix2 k o))
  + ∑ k : Fin 128, Ideal.div (∑ j : Fin 10000, a (ix2 p j) * fb (ix2 j (lo k)))
        ((∑ j : Fin 10000, a (ix2 p j) * fb (ix2 j (hi k))) + oneF) * w2 (ix2 k o)

/-! ## The two matrix products at a row and a column

Each operand index of a product with one contracting axis has the output's coordinate on the kept axis and the
contraction position on the contracted one. -/

theorem lhs_wide_0 (i : S200x256.Idx) (q : dot_S200x10000_S10000x256_S200x256_1_0_0_1_n_n.contr.Idx) :
    (dot_S200x10000_S10000x256_S200x256_1_0_0_1_n_n.lhsIdx i q 0).val = (i 0).val := by
  unfold DotDims.lhsIdx
  rw [dif_neg (show ¬(0 : Fin S200x10000.rank) ∈ dot_S200x10000_S10000x256_S200x256_1_0_0_1_n_n.lhsBatch by decide), dif_pos (show (0 : Fin S200x10000.rank) ∈ dot_S200x10000_S10000x256_S200x256_1_0_0_1_n_n.lhsNonContracting by decide)]
  rfl
theorem lhs_wide_1 (i : S200x256.Idx) (q : dot_S200x10000_S10000x256_S200x256_1_0_0_1_n_n.contr.Idx) :
    (dot_S200x10000_S10000x256_S200x256_1_0_0_1_n_n.lhsIdx i q 1).val = (q ⟨0, by decide⟩).val :=
  dot_S200x10000_S10000x256_S200x256_1_0_0_1_n_n.lhsIdx_val_of_single rfl i q
theorem rhs_wide_0 (i : S200x256.Idx) (q : dot_S200x10000_S10000x256_S200x256_1_0_0_1_n_n.contr.Idx) :
    (dot_S200x10000_S10000x256_S200x256_1_0_0_1_n_n.rhsIdx i q 0).val = (q ⟨0, by decide⟩).val :=
  dot_S200x10000_S10000x256_S200x256_1_0_0_1_n_n.rhsIdx_val_of_single rfl i q
theorem rhs_wide_1 (i : S200x256.Idx) (q : dot_S200x10000_S10000x256_S200x256_1_0_0_1_n_n.contr.Idx) :
    (dot_S200x10000_S10000x256_S200x256_1_0_0_1_n_n.rhsIdx i q 1).val = (i 1).val := by
  unfold DotDims.rhsIdx
  rw [dif_neg (show ¬(1 : Fin S10000x256.rank) ∈ dot_S200x10000_S10000x256_S200x256_1_0_0_1_n_n.rhsBatch by decide), dif_pos (show (1 : Fin S10000x256.rank) ∈ dot_S200x10000_S10000x256_S200x256_1_0_0_1_n_n.rhsNonContracting by decide)]
  rfl

/-- The 200 × 10000 by 10000 × 256 product into a zero accumulator is the plain sum over the 10000 positions. -/
theorem mm_wide (l : FVec Ideal S200x10000 .bf16) (r : FVec Ideal S10000x256 .bf16) (p : Fin 200) (c : Fin 256) :
    matmul (F := Ideal) dot_S200x10000_S10000x256_S200x256_1_0_0_1_n_n none l r (constant S200x256 .f32 0x00000000#32) (ix2 p c)
      = ∑ j : Fin 10000, l (ix2 p j) * r (ix2 j c) := by
  simp only [matmul]
  rw [Ideal.matmul_constant_zero_apply, ← Equiv.sum_comp (contrEquiv1 dot_S200x10000_S10000x256_S200x256_1_0_0_1_n_n 10000 rfl rfl).symm]
  refine Finset.sum_congr rfl fun k _ => ?_
  have hk := contrEquiv1_symm_val dot_S200x10000_S10000x256_S200x256_1_0_0_1_n_n 10000 rfl rfl k
  have el : dot_S200x10000_S10000x256_S200x256_1_0_0_1_n_n.lhsIdx (ix2 p c) ((contrEquiv1 dot_S200x10000_S10000x256_S200x256_1_0_0_1_n_n 10000 rfl rfl).symm k) = ix2 p k := funext fun a => Fin.ext (by
    match a with
    | ⟨0, _⟩ => exact lhs_wide_0 _ _
    | ⟨1, _⟩ => exact (lhs_wide_1 _ _).trans hk)
  have er : dot_S200x10000_S10000x256_S200x256_1_0_0_1_n_n.rhsIdx (ix2 p c) ((contrEquiv1 dot_S200x10000_S10000x256_S200x256_1_0_0_1_n_n 10000 rfl rfl).symm k) = ix2 k c := funext fun a => Fin.ext (by
    match a with
    | ⟨0, _⟩ => exact (rhs_wide_0 _ _).trans hk
    | ⟨1, _⟩ => exact rhs_wide_1 _ _)
  rw [el, er]

theorem lhs_sq_0 (i : S200x128.Idx) (q : dot_S200x128_S128x128_S200x128_1_0_0_1_n_n.contr.Idx) :
    (dot_S200x128_S128x128_S200x128_1_0_0_1_n_n.lhsIdx i q 0).val = (i 0).val := by
  unfold DotDims.lhsIdx
  rw [dif_neg (show ¬(0 : Fin S200x128.rank) ∈ dot_S200x128_S128x128_S200x128_1_0_0_1_n_n.lhsBatch by decide), dif_pos (show (0 : Fin S200x128.rank) ∈ dot_S200x128_S128x128_S200x128_1_0_0_1_n_n.lhsNonContracting by decide)]
  rfl
theorem lhs_sq_1 (i : S200x128.Idx) (q : dot_S200x128_S128x128_S200x128_1_0_0_1_n_n.contr.Idx) :
    (dot_S200x128_S128x128_S200x128_1_0_0_1_n_n.lhsIdx i q 1).val = (q ⟨0, by decide⟩).val :=
  dot_S200x128_S128x128_S200x128_1_0_0_1_n_n.lhsIdx_val_of_single rfl i q
theorem rhs_sq_0 (i : S200x128.Idx) (q : dot_S200x128_S128x128_S200x128_1_0_0_1_n_n.contr.Idx) :
    (dot_S200x128_S128x128_S200x128_1_0_0_1_n_n.rhsIdx i q 0).val = (q ⟨0, by decide⟩).val :=
  dot_S200x128_S128x128_S200x128_1_0_0_1_n_n.rhsIdx_val_of_single rfl i q
theorem rhs_sq_1 (i : S200x128.Idx) (q : dot_S200x128_S128x128_S200x128_1_0_0_1_n_n.contr.Idx) :
    (dot_S200x128_S128x128_S200x128_1_0_0_1_n_n.rhsIdx i q 1).val = (i 1).val := by
  unfold DotDims.rhsIdx
  rw [dif_neg (show ¬(1 : Fin S128x128.rank) ∈ dot_S200x128_S128x128_S200x128_1_0_0_1_n_n.rhsBatch by decide), dif_pos (show (1 : Fin S128x128.rank) ∈ dot_S200x128_S128x128_S200x128_1_0_0_1_n_n.rhsNonContracting by decide)]
  rfl

/-- The 200 × 128 by 128 × 128 product into a zero accumulator is the plain sum over the 128 positions. -/
theorem mm_sq (l : FVec Ideal S200x128 .bf16) (r : FVec Ideal S128x128 .bf16) (p : Fin 200) (c : Fin 128) :
    matmul (F := Ideal) dot_S200x128_S128x128_S200x128_1_0_0_1_n_n none l r (constant S200x128 .f32 0x00000000#32) (ix2 p c)
      = ∑ j : Fin 128, l (ix2 p j) * r (ix2 j c) := by
  simp only [matmul]
  rw [Ideal.matmul_constant_zero_apply, ← Equiv.sum_comp (contrEquiv1 dot_S200x128_S128x128_S200x128_1_0_0_1_n_n 128 rfl rfl).symm]
  refine Finset.sum_congr rfl fun k _ => ?_
  have hk := contrEquiv1_symm_val dot_S200x128_S128x128_S200x128_1_0_0_1_n_n 128 rfl rfl k
  have el : dot_S200x128_S128x128_S200x128_1_0_0_1_n_n.lhsIdx (ix2 p c) ((contrEquiv1 dot_S200x128_S128x128_S200x128_1_0_0_1_n_n 128 rfl rfl).symm k) = ix2 p k := funext fun a => Fin.ext (by
    match a with
    | ⟨0, _⟩ => exact lhs_sq_0 _ _
    | ⟨1, _⟩ => exact (lhs_sq_1 _ _).trans hk)
  have er : dot_S200x128_S128x128_S200x128_1_0_0_1_n_n.rhsIdx (ix2 p c) ((contrEquiv1 dot_S200x128_S128x128_S200x128_1_0_0_1_n_n 128 rfl rfl).symm k) = ix2 k c := funext fun a => Fin.ext (by
    match a with
    | ⟨0, _⟩ => exact (rhs_sq_0 _ _).trans hk
    | ⟨1, _⟩ => exact rhs_sq_1 _ _)
  rw [el, er]

/-- The first stream's piece (stored to the block's upper 200 rows). -/
theorem pay3_at (v0 : Vec Ideal S10000x256 .bf16) (v2 : Vec Ideal S200x10000 .f32) (v13 : Vec Ideal S200x128 .bf16)
    (v15 v19 : Vec Ideal S128x128 .bf16) (p : Fin 200) (o : Fin 128) :
    k0_pay3 (F := Ideal) v0 v2 v13 v15 v19 (ix2 p o) = pieceAt v0 v2 v13 v15 v19 p o := by
  unfold k0_pay3 k0_pay2
  -- a cast to the same shape is the identity
  simp only [shapeCast_self]
  -- the sum of two 128-term products; the first is already the piece's first sum
  rw [addf_apply, mm_sq, mm_sq]
  unfold pieceAt
  refine congrArg (_ + ·) (Finset.sum_congr rfl fun k _ => ?_)
  -- the left factor at (p, k): the quotient of column k by column 128 + k plus one of the 200 × 256 product
  rw [truncf_apply, divf_apply, addf_apply, broadcast_apply,
    slice2_axis1_apply 0 _ slices_S200x256_o0_0_S200x128 p k (lo k) (Nat.zero_add _).symm,
    slice2_axis1_apply 128 _ slices_S200x256_o0_128_S200x128 p k (hi k) rfl, mm_wide, mm_wide]
  rfl

/-- The second stream's piece (stored to the lower 200 rows). -/
theorem pay1_at (v0 : Vec Ideal S10000x256 .bf16) (v24 : Vec Ideal S200x10000 .f32) (v35 : Vec Ideal S200x128 .bf16)
    (v37 v41 : Vec Ideal S128x128 .bf16) (p : Fin 200) (o : Fin 128) :
    k0_pay1 (F := Ideal) (k0_pay4 (F := Ideal) v0 v24) v35 v37 v41 (ix2 p o) = pieceAt v0 v24 v35 v37 v41 p o :=
  -- with the carried quotient unfolded, the second stream's arithmetic is the first's term for term
  pay3_at v0 v24 v35 v37 v41 p o

end Cert.KernelIdeal.Piece

end
-- ==== Proof.HostPrefix.lean ====
/-
  What the host operations before the region leave in the three resident operands, read at an index (at the ideal
  instance, where narrowing to bf16 is the identity): the feature matrix with 128 columns of ones appended, and the
  weight's two halves transposed.
-/
import proofs.«111969_g26362509263549_cont_9to1_630_17_alg».proof.Proof.SageEntry
import proofs.«111969_g26362509263549_cont_9to1_630_17_alg».proof.Proof.SageSpec
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

noncomputable section

namespace Cert.KernelIdeal.Region

open Cert.KernelIdeal Cert.KernelIdeal.Gen Cert.Sage
open Idealize.ShloMosaic Idealize.ShloMosaic.TcCoe Idealize.ShloMosaic.ValueIdx Idealize.SL.Sem

variable (m : (ℓ : Loc nD τ sig) → Buf (Elt Ideal) ℓ)

/-! ## The three operands as terms over the launch contents -/

/-- The resident matrix is the features (narrowed) with the broadcast constant appended along the columns. -/
theorem V_v8_eq (c : Dev nD) :
    (V m c main_v8 : S10000x256.Idx → EReal) =
      concatenate S10000x256 1
        [⟨S10000x128, truncf .bf16 (m ((c : Thread nD τ).loc main_arg1)) bitsLt_bf16_f32⟩,
         ⟨S10000x128, broadcastInDim S10000x128 ![] bcast_S_S10000x128 (constant (F := Ideal) S_ .bf16 0x3F80#16)⟩]
        concatenates_S10000x128_S10000x128_S10000x256_d1 := by
  dsimp only [V, hostOps0]; after_results

/-- The first weight operand is the narrowed transpose of the slice of the weight at column offset 0. -/
theorem V_v2_eq (c : Dev nD) :
    (V m c main_v2 : S128x128.Idx → EReal) =
      (truncf (F := Ideal) (φ := .f32) .bf16 (transpose S128x128 [1, 0]
        (extractStridedSlice S128x128 ![0, 0] (m ((c : Thread nD τ).loc main_arg2)) slices_S128x256_S128x128_0_0)
        transposes_S128x128_S128x128_1_0) bitsLt_bf16_f32 : FVec Ideal S128x128 .bf16) := by
  dsimp only [V, hostOps0]; after_results

/-- The second weight operand is the narrowed transpose of the slice of the weight at column offset 128. -/
theorem V_v5_eq (c : Dev nD) :
    (V m c main_v5 : S128x128.Idx → EReal) =
      (truncf (F := Ideal) (φ := .f32) .bf16 (transpose S128x128 [1, 0]
        (extractStridedSlice S128x128 ![0, 128] (m ((c : Thread nD τ).loc main_arg2)) slices_S128x256_S128x128_0_128)
        transposes_S128x128_S128x128_1_0) bitsLt_bf16_f32 : FVec Ideal S128x128 .bf16) := by
  dsimp only [V, hostOps0]; after_results

/-- The bf16 word 0x3F80 denotes one: sign 0, exponent 127 (the bias), fraction 0. -/
theorem ofBits_one_bf16 : Ideal.ofBits .bf16 0x3F80#16 = 1 := by
  simp [Ideal.ofBits, Ideal.ieee, -EReal.coe_mul]; norm_num

/-! ## Read at an index -/

/-- The resident matrix's first 128 columns are the features. -/
theorem V_feat (c : Dev nD) (j : Fin 10000) (k : Fin 128) :
    (V m c main_v8 : S10000x256.Idx → EReal) (ix2 j (lo k)) = (m ((c : Thread nD τ).loc main_arg1) : S10000x128.Idx → EReal) (ix2 j k) := by
  rw [V_v8_eq]
  -- column lo k = k < 128 falls in the first piece, at the same coordinates
  exact concatenate_pair_apply_left (1 : Fin S10000x256.rank) _ _ concatenates_S10000x128_S10000x128_S10000x256_d1
    (ix2 j (lo k)) rfl (ix2 j k) (fun b => match b with
      | ⟨0, _⟩ => rfl
      | ⟨1, _⟩ => rfl)

/-- Its last 128 columns are ones. -/
theorem V_ones (c : Dev nD) (j : Fin 10000) (k : Fin 128) :
    (V m c main_v8 : S10000x256.Idx → EReal) (ix2 j (hi k)) = (1 : EReal) := by
  rw [V_v8_eq]
  -- column hi k = 128 + k falls in the second piece, at column k
  rw [concatenate_pair_apply_right (1 : Fin S10000x256.rank) _ _ concatenates_S10000x128_S10000x128_S10000x256_d1
    (ix2 j (hi k)) rfl rfl (ix2 j k) (fun b => match b with
      | ⟨0, _⟩ => fun _ => rfl
      | ⟨1, _⟩ => fun hb => absurd rfl hb)
    (show k.val + 128 = 128 + k.val from Nat.add_comm _ _)]
  -- the broadcast of a rank-0 constant reads the constant
  rw [broadcastInDim_apply _ bcast_S_S10000x128 _ (ix2 j k) (fun a => a.elim0) (fun a => a.elim0)]
  exact ofBits_one_bf16

/-- The first weight operand is the weight's first half, transposed. -/
theorem V_w1 (c : Dev nD) (k o : Fin 128) :
    (V m c main_v2 : S128x128.Idx → EReal) (ix2 k o) = (m ((c : Thread nD τ).loc main_arg2) : S128x256.Idx → EReal) (ix2 o (lo k)) := by
  rw [V_v2_eq]
  -- narrowing is the identity on the extended reals
  rw [truncf_apply]
  rw [transpose_apply [1, 0] _ transposes_S128x128_S128x128_1_0 (ix2 k o) (ix2 o k) (fun b => match b with
      | ⟨0, _⟩ => rfl
      | ⟨1, _⟩ => rfl)]
  exact extractStridedSlice_apply ![0, 0] _ slices_S128x256_S128x128_0_0 (ix2 o k) (ix2 o (lo k)) (fun a => match a with
      | ⟨0, _⟩ => (Nat.zero_add _).symm
      | ⟨1, _⟩ => (Nat.zero_add _).symm)

/-- The second weight operand is the weight's second half, transposed. -/
theorem V_w2 (c : Dev nD) (k o : Fin 128) :
    (V m c main_v5 : S128x128.Idx → EReal) (ix2 k o) = (m ((c : Thread nD τ).loc main_arg2) : S128x256.Idx → EReal) (ix2 o (hi k)) := by
  rw [V_v5_eq]
  -- narrowing is the identity on the extended reals
  rw [truncf_apply]
  rw [transpose_apply [1, 0] _ transposes_S128x128_S128x128_1_0 (ix2 k o) (ix2 o k) (fun b => match b with
      | ⟨0, _⟩ => rfl
      | ⟨1, _⟩ => rfl)]
  exact extractStridedSlice_apply ![0, 128] _ slices_S128x256_S128x128_0_128 (ix2 o k) (ix2 o (hi k)) (fun a => match a with
      | ⟨0, _⟩ => (Nat.zero_add _).symm
      | ⟨1, _⟩ => rfl)

end Cert.KernelIdeal.Region

end
-- ==== Proof.SageArray.lean ====
/-
  The result array after the region's last write-back is the layer's function `G` of the three argument arrays:
  grid point `t` writes rows `400 t … 400 t + 399`; its upper 200 rows are the first stream's piece (rows
  `400 t + p` of the adjacency array), its lower 200 the second's (rows `400 t + 200 + p`); the resident matrix's
  ones turn the second half of the wide product into the row sum; the 25 blocks tile the 10000 rows.
-/
import proofs.«111969_g26362509263549_cont_9to1_630_17_alg».proof.Proof.SageData
import proofs.«111969_g26362509263549_cont_9to1_630_17_alg».proof.Proof.PieceValue
import proofs.«111969_g26362509263549_cont_9to1_630_17_alg».proof.Proof.HostPrefix
import proofs.«111969_g26362509263549_cont_9to1_630_17_alg».proof.Proof.SageSpec
import Idealize.ShloMosaic.Lib.ValueIdx
import Idealize.ShloMosaic.Lib.Pipeline.Value

set_option maxRecDepth 16384

noncomputable section

open scoped BigOperators

namespace Cert.KernelIdeal.Region

open Cert.KernelIdeal Cert.KernelIdeal.Gen Cert.Sage Cert.KernelIdeal.Piece
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ)

namespace Tile

/-! ## Index facts, decided over the 25 grid points -/

/-- The origin of a rank-2 shape, as the constant function. -/
theorem zeros2 : (![0, 0] : Fin 2 → Nat) = fun _ => 0 := funext fun a => by
  match a with | ⟨0, _⟩ => rfl | ⟨1, _⟩ => rfl

/-- At grid point `t`: the output window is at block row `t`, the two stream windows at block rows `2 t` and `2 t + 1`
    of the adjacency array, the three resident operands at block (0, 0); the two loads of feature rows start at rows
    `400 t` and `400 t + 200`, column 0; and there are 25 points. -/
theorem grid_facts : ∀ t : Fin cfg0.N,
    win0_5.index t (0 : Fin 2) = t.val ∧ win0_5.index t (1 : Fin 2) = 0
    ∧ win0_0.index t (0 : Fin 2) = 2 * t.val ∧ win0_0.index t (1 : Fin 2) = 0
    ∧ win0_1.index t (0 : Fin 2) = 2 * t.val + 1 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ (k0_off1 (grid0.coords t) 0#32) (0 : Fin 2) = 400 * t.val ∧ (k0_off1 (grid0.coords t) 0#32) (1 : Fin 2) = 0
    ∧ (k0_off1 (grid0.coords t) 200#32) (0 : Fin 2) = 400 * t.val + 200 ∧ (k0_off1 (grid0.coords t) 200#32) (1 : Fin 2) = 0
    ∧ t.val < 25 :=
  (by decide +kernel : ∀ t : Fin grid0.N, _)

/-! ## One piece is one stretch of rows of the layer's output -/

/-- The arithmetic of one piece is the layer's row, once each operand is read as the array it is a part of. -/
theorem pieceAt_eq_outAt (A : SAdj.Idx → EReal) (X : SFeat.Idx → EReal) (W : SWt.Idx → EReal)
    (fb : Vec Ideal S10000x256 .bf16) (a : Vec Ideal S200x10000 .f32) (f : Vec Ideal S200x128 .bf16)
    (w1 w2 : Vec Ideal S128x128 .bf16) (r : Fin 10000) (p : Fin 200)
    (hf : ∀ k : Fin 128, f (ix2 p k) = X (ix2 r k))
    (ha : ∀ j : Fin 10000, a (ix2 p j) = A (ix2 r j))
    (hlo : ∀ (j : Fin 10000) (k : Fin 128), fb (ix2 j (lo k)) = X (ix2 j k))
    (hhi : ∀ (j : Fin 10000) (k : Fin 128), fb (ix2 j (hi k)) = (1 : EReal))
    (hw1 : ∀ k o : Fin 128, w1 (ix2 k o) = W (ix2 o (lo k)))
    (hw2 : ∀ k o : Fin 128, w2 (ix2 k o) = W (ix2 o (hi k)))
    (o : Fin 128) :
    pieceAt fb a f w1 w2 p o = outAt A X W r o := by
  unfold pieceAt outAt neigh agg deg
  simp only [hf, ha, hlo, hhi, hw1, hw2, mul_one]

/-! ## The output block from its two pieces -/

/-- The block's upper 200 rows hold the first piece. -/
theorem canon_upper (p1 p0 : Vec Ideal S200x128 .f32) (q : Fin 200) (o : Fin 128) :
    View.canon [(⟨rOut1, p1⟩ : View.Piece (Elt Ideal) S400x128 .f32), ⟨rOut0, p0⟩] (ix2 (⟨q.val, by omega⟩ : Fin 400) o) = p0 (ix2 q o) := by
  rw [View.canon_cons_of_not_mem _ _ (by
    rw [Rect.mem_set_unit]
    intro h
    have h0 := (h 0).1
    have : (200 : Nat) ≤ q.val := h0
    omega)]
  have e : (ix2 (⟨q.val, by omega⟩ : Fin 400) o : S400x128.Idx) = rOut0.emb (ix2 q o) := by
    funext a; apply Fin.ext
    match a with
    | ⟨0, _⟩ => show q.val = 0 + 1 * q.val; omega
    | ⟨1, _⟩ => show o.val = 0 + 1 * o.val; omega
  rw [e, View.canon_cons_emb]

/-- Its lower 200 rows hold the second piece. -/
theorem canon_lower (p1 p0 : Vec Ideal S200x128 .f32) (q : Fin 200) (o : Fin 128) :
    View.canon [(⟨rOut1, p1⟩ : View.Piece (Elt Ideal) S400x128 .f32), ⟨rOut0, p0⟩] (ix2 (⟨200 + q.val, by omega⟩ : Fin 400) o) = p1 (ix2 q o) := by
  have e : (ix2 (⟨200 + q.val, by omega⟩ : Fin 400) o : S400x128.Idx) = rOut1.emb (ix2 q o) := by
    funext a; apply Fin.ext
    match a with
    | ⟨0, _⟩ => show 200 + q.val = 200 + 1 * q.val; omega
    | ⟨1, _⟩ => show o.val = 0 + 1 * o.val; omega
  rw [e, View.canon_cons_emb]

/-- One grid point's output block, read at a row and a column, is the layer's output at the block's place in the
    array: row `q` of point `t`'s block is row `400 t + q`. The staged operands enter only through what they hold. -/
theorem out5_at (A : SAdj.Idx → EReal) (X : SFeat.Idx → EReal) (W : SWt.Idx → EReal) (t : Fin cfg0.N)
    (x0 x1 : Vec Ideal S200x10000 .f32) (x2 : Vec Ideal S10000x256 .bf16) (x3 x4 : Vec Ideal S128x128 .bf16)
    (h0 : ∀ (p : Fin 200) (j r : Fin 10000), r.val = 400 * t.val + p.val → x0 (ix2 p j) = A (ix2 r j))
    (h1 : ∀ (p : Fin 200) (j r : Fin 10000), r.val = 400 * t.val + 200 + p.val → x1 (ix2 p j) = A (ix2 r j))
    (hlo : ∀ (j : Fin 10000) (k : Fin 128), x2 (ix2 j (lo k)) = X (ix2 j k))
    (hhi : ∀ (j : Fin 10000) (k : Fin 128), x2 (ix2 j (hi k)) = (1 : EReal))
    (hw1 : ∀ k o : Fin 128, x3 (ix2 k o) = W (ix2 o (lo k)))
    (hw2 : ∀ k o : Fin 128, x4 (ix2 k o) = W (ix2 o (hi k)))
    (q : Fin 400) (o : Fin 128) (r : Fin 10000) (hr : r.val = 400 * t.val + q.val) :
    out5 (grid0.coords t) x0 x1 x2 x3 x4 (ix2 q o) = outAt A X W r o := by
  obtain ⟨-, -, -, -, -, -, -, -, -, -, -, -, e0, e0', e1, e1', ht⟩ := grid_facts t
  obtain ⟨qv, hqv⟩ := q
  unfold out5
  by_cases hq : qv < 200
  · have hr' : r.val = 400 * t.val + qv := hr
    refine (canon_upper _ _ ⟨qv, hq⟩ o).trans ?_
    refine (pay3_at _ _ _ _ _ _ _).trans ?_
    refine pieceAt_eq_outAt A X W _ _ _ _ _ r ⟨qv, hq⟩ ?_ ?_ ?_ ?_ ?_ ?_ o
    · intro k
      show x2 ((rRows0 (grid0.coords t)).idx (ix2 (⟨qv, hq⟩ : Fin 200) k)) = X (ix2 r k)
      have e : (rRows0 (grid0.coords t)).idx (ix2 (⟨qv, hq⟩ : Fin 200) k) = ix2 r (lo k) := by
        funext a; apply Fin.ext
        match a with
        | ⟨0, _⟩ => show k0_off1 (grid0.coords t) 0#32 0 + 1 * qv = r.val; rw [e0, hr']; omega
        | ⟨1, _⟩ => show k0_off1 (grid0.coords t) 0#32 1 + 1 * k.val = k.val; rw [e0']; omega
      rw [e, hlo]
    · intro j; rw [View.ld_unit_zero zeros2]; exact h0 ⟨qv, hq⟩ j r hr'
    · intro j k; rw [View.ld_unit_zero zeros2]; exact hlo j k
    · intro j k; rw [View.ld_unit_zero zeros2]; exact hhi j k
    · intro k o; rw [View.ld_unit_zero zeros2]; exact hw1 k o
    · intro k o; rw [View.ld_unit_zero zeros2]; exact hw2 k o
  · obtain ⟨q', rfl⟩ : ∃ q', qv = 200 + q' := ⟨qv - 200, by omega⟩
    have hq' : q' < 200 := by omega
    have hr' : r.val = 400 * t.val + (200 + q') := hr
    refine (canon_lower _ _ ⟨q', hq'⟩ o).trans ?_
    refine (pay1_at _ _ _ _ _ _ _).trans ?_
    refine pieceAt_eq_outAt A X W _ _ _ _ _ r ⟨q', hq'⟩ ?_ ?_ ?_ ?_ ?_ ?_ o
    · intro k
      show x2 ((rRows1 (grid0.coords t)).idx (ix2 (⟨q', hq'⟩ : Fin 200) k)) = X (ix2 r k)
      have e : (rRows1 (grid0.coords t)).idx (ix2 (⟨q', hq'⟩ : Fin 200) k) = ix2 r (lo k) := by
        funext a; apply Fin.ext
        match a with
        | ⟨0, _⟩ => show k0_off1 (grid0.coords t) 200#32 0 + 1 * q' = r.val; rw [e1, hr']; omega
        | ⟨1, _⟩ => show k0_off1 (grid0.coords t) 200#32 1 + 1 * k.val = k.val; rw [e1']; omega
      rw [e, hlo]
    · intro j; rw [View.ld_unit_zero zeros2]; exact h1 ⟨q', hq'⟩ j r (by show r.val = 400 * t.val + 200 + q'; omega)
    · intro j k; rw [View.ld_unit_zero zeros2]; exact hlo j k
    · intro j k; rw [View.ld_unit_zero zeros2]; exact hhi j k
    · intro k o; rw [View.ld_unit_zero zeros2]; exact hw1 k o
    · intro k o; rw [View.ld_unit_zero zeros2]; exact hw2 k o

/-! ## Each staged block as the array it is a block of -/

/-- The first stream's block at point `t` is rows `400 t … 400 t + 199` of the adjacency array. -/
theorem iblk0_at (c : Dev nD) (t : Fin cfg0.N) (p : Fin 200) (j r : Fin 10000) (hr : r.val = 400 * t.val + p.val) :
    (iblk m c 0 t : Vec Ideal S200x10000 .f32) (ix2 p j)
      = (m ((c : Thread nD τ).loc main_arg0) : S10000x10000.Idx → EReal) (ix2 r j) := by
  obtain ⟨-, -, e, e', -⟩ := grid_facts t
  unfold iblk
  rw [View.read_apply]
  show V m c main_arg0 _ = _
  rw [V_main_arg0]
  congr 1
  funext a; apply Fin.ext
  match a with
  | ⟨0, _⟩ => show win0_0.index t 0 * 200 + 1 * p.val = r.val; rw [e, hr]; omega
  | ⟨1, _⟩ => show win0_0.index t 1 * 10000 + 1 * j.val = j.val; rw [e']; omega

/-- The second stream's block at point `t` is rows `400 t + 200 … 400 t + 399`. -/
theorem iblk1_at (c : Dev nD) (t : Fin cfg0.N) (p : Fin 200) (j r : Fin 10000) (hr : r.val = 400 * t.val + 200 + p.val) :
    (iblk m c 1 t : Vec Ideal S200x10000 .f32) (ix2 p j)
      = (m ((c : Thread nD τ).loc main_arg0) : S10000x10000.Idx → EReal) (ix2 r j) := by
  obtain ⟨-, -, -, -, e, e', -⟩ := grid_facts t
  unfold iblk
  rw [View.read_apply]
  show V m c main_arg0 _ = _
  rw [V_main_arg0]
  congr 1
  funext a; apply Fin.ext
  match a with
  | ⟨0, _⟩ => show win0_1.index t 0 * 200 + 1 * p.val = r.val; rw [e, hr]; omega
  | ⟨1, _⟩ => show win0_1.index t 1 * 10000 + 1 * j.val = j.val; rw [e']; omega

/-- The resident matrix is staged whole. -/
theorem iblk2_at (c : Dev nD) (t : Fin cfg0.N) (j : Fin 10000) (k : Fin 256) :
    (iblk m c 2 t : Vec Ideal S10000x256 .bf16) (ix2 j k) = (V m c main_v8 : S10000x256.Idx → EReal) (ix2 j k) := by
  obtain ⟨-, -, -, -, -, -, e, e', -⟩ := grid_facts t
  unfold iblk
  rw [View.read_apply]
  show V m c main_v8 _ = _
  congr 1
  funext a; apply Fin.ext
  match a with
  | ⟨0, _⟩ => show win0_2.index t 0 * 10000 + 1 * j.val = j.val; rw [e]; omega
  | ⟨1, _⟩ => show win0_2.index t 1 * 256 + 1 * k.val = k.val; rw [e']; omega

/-- The first weight operand is staged whole. -/
theorem iblk3_at (c : Dev nD) (t : Fin cfg0.N) (k o : Fin 128) :
    (iblk m c 3 t : Vec Ideal S128x128 .bf16) (ix2 k o) = (V m c main_v2 : S128x128.Idx → EReal) (ix2 k o) := by
  obtain ⟨-, -, -, -, -, -, -, -, e, e', -⟩ := grid_facts t
  unfold iblk
  rw [View.read_apply]
  show V m c main_v2 _ = _
  congr 1
  funext a; apply Fin.ext
  match a with
  | ⟨0, _⟩ => show win0_3.index t 0 * 128 + 1 * k.val = k.val; rw [e]; omega
  | ⟨1, _⟩ => show win0_3.index t 1 * 128 + 1 * o.val = o.val; rw [e']; omega

/-- The second weight operand, likewise. -/
theorem iblk4_at (c : Dev nD) (t : Fin cfg0.N) (k o : Fin 128) :
    (iblk m c 4 t : Vec Ideal S128x128 .bf16) (ix2 k o) = (V m c main_v5 : S128x128.Idx → EReal) (ix2 k o) := by
  obtain ⟨-, -, -, -, -, -, -, -, -, -, e, e', -⟩ := grid_facts t
  unfold iblk
  rw [View.read_apply]
  show V m c main_v5 _ = _
  congr 1
  funext a; apply Fin.ext
  match a with
  | ⟨0, _⟩ => show win0_4.index t 0 * 128 + 1 * k.val = k.val; rw [e]; omega
  | ⟨1, _⟩ => show win0_4.index t 1 * 128 + 1 * o.val = o.val; rw [e']; omega

/-! ## What a grid point writes back, and the array after the last point -/

/-- Point `t` writes back block `t` of the layer's output array. -/
theorem flushed5_eq (c : Dev nD) (t : Fin cfg0.N) :
    (dats (F := Ideal) m 0 c).flushed 5 t
      = ((cfg0.win 5).blk t).view.read (Elt Ideal)
          (G (m ((c : Thread nD τ).loc main_arg0)) (m ((c : Thread nD τ).loc main_arg1)) (m ((c : Thread nD τ).loc main_arg2))) := by
  show (cfg0.win 5).cut (grid0.coords t) ((dats m 0 c).after 5 t) = _
  rw [after0_5]
  obtain ⟨e5, e5', -, -, -, -, -, -, -, -, -, -, -, -, -, -, ht⟩ := grid_facts t
  funext y
  have hy0 : (y 0).val < 400 := (y 0).isLt
  have hy1 : (y 1).val < 128 := (y 1).isLt
  have hx : (cfg0.win 5).xinj (grid0.coords t) y
      = (ix2 (⟨(y 0).val, hy0⟩ : Fin 400) (⟨(y 1).val, hy1⟩ : Fin 128) : S400x128.Idx) := by
    funext a
    match a with
    | ⟨0, _⟩ => rfl
    | ⟨1, _⟩ => rfl
  have he : ((cfg0.win 5).blk t).view.emb y
      = (ix2 (⟨400 * t.val + (y 0).val, by omega⟩ : Fin 10000) (⟨(y 1).val, hy1⟩ : Fin 128) : S10000x128.Idx) := by
    funext a; apply Fin.ext
    match a with
    | ⟨0, _⟩ => show win0_5.index t 0 * 400 + 1 * (y 0).val = 400 * t.val + (y 0).val; rw [e5]; omega
    | ⟨1, _⟩ => show win0_5.index t 1 * 128 + 1 * (y 1).val = (y 1).val; rw [e5']; omega
  show out5 (grid0.coords t) (iblk m c 0 t) (iblk m c 1 t) (iblk m c 2 t) (iblk m c 3 t) (iblk m c 4 t) ((cfg0.win 5).xinj (grid0.coords t) y)
      = G (m ((c : Thread nD τ).loc main_arg0)) (m ((c : Thread nD τ).loc main_arg1)) (m ((c : Thread nD τ).loc main_arg2)) (((cfg0.win 5).blk t).view.emb y)
  rw [hx, he, G_ix2]
  exact out5_at _ _ _ t _ _ _ _ _
    (fun p j r hr => iblk0_at m c t p j r hr)
    (fun p j r hr => iblk1_at m c t p j r hr)
    (fun j k => (iblk2_at m c t j (lo k)).trans (V_feat m c j k))
    (fun j k => (iblk2_at m c t j (hi k)).trans (V_ones m c j k))
    (fun k o => (iblk3_at m c t k o).trans (V_w1 m c k o))
    (fun k o => (iblk4_at m c t k o).trans (V_w2 m c k o))
    _ _ _ rfl

/-- An index of the array is in point `t`'s block iff each coordinate is in the block's range on its axis. -/
theorem mem_blk5 (t : Fin cfg0.N) (i : S10000x128.Idx) :
    i ∈ ((cfg0.win 5).blk t).view.set
      ↔ ∀ a : Fin 2, win0_5.index t a * S400x128.size a ≤ (i a).val ∧ (i a).val < win0_5.index t a * S400x128.size a + S400x128.size a := by
  show i ∈ ((View.whole main_v9).slice (win0_5.rect t)).set ↔ _
  rw [View.set_slice_whole, Rect.mem_set_unit]
  exact Iff.rfl

/-- The 25 blocks tile the 10000 rows: row `R` is written back by point `R / 400`. -/
theorem cover5_rows (i : S10000x128.Idx) :
    ∃ t : Fin cfg0.N, (cfg0.win 5).flush t = true ∧ i ∈ ((cfg0.win 5).blk t).view.set := by
  have hi0 : (i 0).val < 10000 := (i 0).isLt
  have hi1 : (i 1).val < 128 := (i 1).isLt
  have hN : cfg0.N = 25 := rfl
  let t : Fin cfg0.N := ⟨(i 0).val / 400, by rw [hN]; omega⟩
  obtain ⟨e5, e5', -⟩ := grid_facts t
  have e5v : win0_5.index t (0 : Fin 2) = (i 0).val / 400 := e5
  refine ⟨t, flush0_5 t, ?_⟩
  rw [mem_blk5]
  intro a
  match a with
  | ⟨0, _⟩ => show win0_5.index t (0 : Fin 2) * 400 ≤ (i 0).val ∧ (i 0).val < win0_5.index t (0 : Fin 2) * 400 + 400; rw [e5v]; omega
  | ⟨1, _⟩ => show win0_5.index t (1 : Fin 2) * 128 ≤ (i 1).val ∧ (i 1).val < win0_5.index t (1 : Fin 2) * 128 + 128; rw [e5']; omega

end Tile

/-- The result array after all 25 write-backs is `G` of the argument arrays as launched. -/
theorem final5 (c : Dev nD) :
    ((dats (F := Ideal) m 0 c).arrAt 5 cfg0.N : S10000x128.Idx → EReal)
      = G (m ((c : Thread nD τ).loc main_arg0)) (m ((c : Thread nD τ).loc main_arg1)) (m ((c : Thread nD τ).loc main_arg2)) :=
  (dats (F := Ideal) m 0 c).arrAt_eq_of_cover 5
    (G (m ((c : Thread nD τ).loc main_arg0)) (m ((c : Thread nD τ).loc main_arg1)) (m ((c : Thread nD τ).loc main_arg2)))
    (fun t _ => Tile.flushed5_eq m c t) Tile.cover5_rows

end Cert.KernelIdeal.Region

end
-- ==== Proof.RefSide.lean ====
/-
  The reference's result array is the layer's function `G` of the three argument arrays: its two `dot_general`s are
  plain sums at the ideal instance, its row sum from a zero initial value is the plain row sum, its concatenation of
  the features with the normalised aggregate is read column by column, and the sum over the 256 joined columns is
  split at column 128.
-/
import proofs.«111969_g26362509263549_cont_9to1_630_17_alg».proof.Proof.Gen.ReferenceIdeal.Run
import proofs.«111969_g26362509263549_cont_9to1_630_17_alg».proof.Proof.Gen.ReferenceIdeal.Read
import proofs.«111969_g26362509263549_cont_9to1_630_17_alg».proof.Proof.SageSpec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Cert.ReferenceIdeal.Read Cert.Sage
open Idealize.ShloMosaic Idealize.ShloMosaic.ValueIdx

/-- The left operand's index of the last product, at row `r` and joined column `c`. -/
theorem lidx9_ix2 (r : Fin 10000) (o : Fin 128) (c : Fin 256) :
    lidx_main_v9 (ix2 r o) c = ix2 r c :=
  funext fun a => Fin.ext (by match a with | ⟨0, _⟩ => rfl | ⟨1, _⟩ => rfl)

/-- The transposed weight at joined column `c`, output column `o`, is the weight at `(o, c)`. -/
theorem ridx9_ix2 (r : Fin 10000) (o : Fin 128) (c : Fin 256) :
    idx_main_v8 (ridx_main_v9 (ix2 r o) c) = ix2 o c :=
  funext fun a => Fin.ext (by match a with | ⟨0, _⟩ => rfl | ⟨1, _⟩ => rfl)

/-- The first product's operand indices at row `r`, column `k`, summation index `j`. -/
theorem lidx0_ix2 (r : Fin 10000) (k : Fin 128) (j : Fin 10000) :
    lidx_main_v0 (ix2 r k) j = ix2 r j :=
  funext fun a => Fin.ext (by match a with | ⟨0, _⟩ => rfl | ⟨1, _⟩ => rfl)
theorem ridx0_ix2 (r : Fin 10000) (k : Fin 128) (j : Fin 10000) :
    ridx_main_v0 (ix2 r k) j = ix2 j k :=
  funext fun a => Fin.ext (by match a with | ⟨0, _⟩ => rfl | ⟨1, _⟩ => rfl)

/-- The row sum's operand index, followed back through the broadcast and the reshape. -/
theorem idx1_ix2 (r : Fin 10000) (k : Fin 128) (j : Fin 10000) :
    idx_main_v1 (idx_main_v2 (idx_main_v5 (ix2 r k))) j = ix2 r j :=
  funext fun a => Fin.ext (by
    match a with
    | ⟨0, _⟩ => show r.val * 1 + 0 = r.val; omega
    | ⟨1, _⟩ => rfl)

/-- The joined array's first 128 columns are the features. -/
theorem v7_lo (A : (⟨S10000x10000, .f32⟩ : BufTy).Contents (Elt Ideal)) (X : (⟨S10000x128, .f32⟩ : BufTy).Contents (Elt Ideal))
    (r : Fin 10000) (k : Fin 128) :
    val_main_v7 (F := Ideal) A X (ix2 r (lo k)) = X (ix2 r k) := by
  unfold val_main_v7
  exact concatenate_pair_apply_left (1 : Fin S10000x256.rank) X (val_main_v6 (F := Ideal) A X)
    concatenates_S10000x128_S10000x128_S10000x256_d1 (ix2 r (lo k)) rfl (ix2 r k)
    (fun b => match b with
      | ⟨0, _⟩ => rfl
      | ⟨1, _⟩ => rfl)

/-- The joined array's last 128 columns are the normalised aggregate. -/
theorem v7_hi (A : (⟨S10000x10000, .f32⟩ : BufTy).Contents (Elt Ideal)) (X : (⟨S10000x128, .f32⟩ : BufTy).Contents (Elt Ideal))
    (r : Fin 10000) (k : Fin 128) :
    val_main_v7 (F := Ideal) A X (ix2 r (hi k)) = val_main_v6 (F := Ideal) A X (ix2 r k) := by
  unfold val_main_v7
  exact concatenate_pair_apply_right (1 : Fin S10000x256.rank) X (val_main_v6 (F := Ideal) A X)
    concatenates_S10000x128_S10000x128_S10000x256_d1 (ix2 r (hi k)) rfl rfl (ix2 r k)
    (fun b => match b with
      | ⟨0, _⟩ => fun _ => rfl
      | ⟨1, _⟩ => fun h => absurd rfl h)
    (by show k.val + 128 = 128 + k.val; omega)

/-- The quotient stage at row `r`, column `k` is the normalised neighbour aggregate. -/
theorem v6_ix2 (A : (⟨S10000x10000, .f32⟩ : BufTy).Contents (Elt Ideal)) (X : (⟨S10000x128, .f32⟩ : BufTy).Contents (Elt Ideal))
    (r : Fin 10000) (k : Fin 128) :
    val_main_v6 (F := Ideal) A X (ix2 r k) = neigh A X r k := by
  rw [val_main_v6_apply, Ideal.hostDivf_def, val_main_v0_apply, val_main_v5_apply, val_main_v4_apply,
    Ideal.addf_def, val_main_v2_apply, val_main_v1_apply, val_main_v3_apply, val_main_cst_0_apply,
    val_main_cst_apply, Ideal.ofBits_def, Ideal.ofBits_def, Ideal.ofBits_zero_f32, zero_add]
  unfold neigh agg deg
  simp only [lidx0_ix2, ridx0_ix2, idx1_ix2]

/-- The reference's last stage, as a function of the argument arrays, is `G`. -/
theorem ref_eq_G (A : (⟨S10000x10000, .f32⟩ : BufTy).Contents (Elt Ideal)) (X : (⟨S10000x128, .f32⟩ : BufTy).Contents (Elt Ideal))
    (W : (⟨S128x256, .f32⟩ : BufTy).Contents (Elt Ideal)) :
    val_main_v9 (F := Ideal) A X W = G A X W := by
  funext i
  obtain ⟨r, o, rfl⟩ : ∃ (r : Fin 10000) (o : Fin 128), i = ix2 r o := ⟨i 0, i 1, eq_ix2 i⟩
  rw [val_main_v9_apply, sum_split256, G_ix2]
  unfold outAt
  congr 1
  · refine Finset.sum_congr rfl fun k _ => ?_
    rw [val_main_v8_apply, lidx9_ix2, ridx9_ix2, v7_lo]
  · refine Finset.sum_congr rfl fun k _ => ?_
    rw [val_main_v8_apply, lidx9_ix2, ridx9_ix2, v7_hi, v6_ix2]

end Cert.ReferenceIdeal.RefValue

end
-- ==== Proof.lean ====
/-
  The certificate's claims, assembled.  Both printed kernel programs have one region whose frame is the region run of
  the Sage*-modules (at the word level and at the ideal instance: the same text, the ideal pass rewrote nothing, so
  `preserves` is trivial).  At the ideal instance the kernel's result array is the layer's function `G` of the
  three argument arrays (blocks of 400 rows, two 200-row streams each), and so is the reference's (its two
  products plain sums, its row sum plain, the joined 256 columns split at 128): equal results, index by index.
-/
import proofs.«111969_g26362509263549_cont_9to1_630_17_alg».proof.Defs
import proofs.«111969_g26362509263549_cont_9to1_630_17_alg».proof.Proof.Gen.Kernel
import proofs.«111969_g26362509263549_cont_9to1_630_17_alg».proof.Proof.Gen.KernelIdeal
import proofs.«111969_g26362509263549_cont_9to1_630_17_alg».proof.Proof.Gen.ReferenceIdeal
import proofs.«111969_g26362509263549_cont_9to1_630_17_alg».proof.Proof.Gen.Pre_finite_inputs
import proofs.«111969_g26362509263549_cont_9to1_630_17_alg».proof.Proof.SageRegionBits
import proofs.«111969_g26362509263549_cont_9to1_630_17_alg».proof.Proof.SageRegion
import proofs.«111969_g26362509263549_cont_9to1_630_17_alg».proof.Proof.SageArray
import proofs.«111969_g26362509263549_cont_9to1_630_17_alg».proof.Proof.RefSide
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Region.frame m ρ

theorem frame_ki : Cert.frame_KernelIdeal := fun m ρ _ => Cert.KernelIdeal.Region.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result array at `G` of the (agreeing) argument arrays. -/
theorem algebraic : Cert.algebraic_KernelIdeal_ReferenceIdeal := by
  intro m ρ m' ρ' _ hagree
  refine ⟨fun c => Cert.Sage.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · refine (θ_run Cert.KernelIdeal.defs _ _).mono (fun r h c => ⟨?_, ?_, ?_, ?_⟩) (Cert.KernelIdeal.Region.run_main (F := Ideal) m ρ)
    · exact ((h c).1 5).trans (Cert.KernelIdeal.Region.final5 m c)
    · exact ((h c).1 0).trans (((Cert.KernelIdeal.Region.dats m 0 c).arrAt_in 0 rfl _).trans
        ((Cert.KernelIdeal.Region.A_eq m c 0).trans (Cert.KernelIdeal.Region.V_main_arg0 m c)))
    · exact ((h c).2 Cert.KernelIdeal.main_arg1 (Pipeline.mem_restRefs_of Cert.KernelIdeal.main_arg1 (by decide) (by decide))).trans
        (Cert.KernelIdeal.Region.V_main_arg1 m c)
    · exact ((h c).2 Cert.KernelIdeal.main_arg2 (Pipeline.mem_restRefs_of Cert.KernelIdeal.main_arg2 (by decide) (by decide))).trans
        (Cert.KernelIdeal.Region.V_main_arg2 m c)
  · refine (θ_run Cert.ReferenceIdeal.defs _ _).mono (fun r h c => ⟨?_, (h c).2⟩) (Cert.ReferenceIdeal.Value.run (F := Ideal) m' ρ')
    rw [(h c).1, Cert.ReferenceIdeal.Read.val_main_v9_eq, Cert.ReferenceIdeal.RefValue.ref_eq_G, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
